-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1600000 : Shape := ⟨1, ![1600000]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S50000x128 .f32) (main_arg1 : FVec F S50000x128 .f32) (main_arg2 : IVec S1600000 32) (main_arg3 : IVec S1600000 32) (main_arg4 : FVec F S1600000 .f32) (main_arg5 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S1600000 .f32 := Host.absf main_arg4
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S50000x128 : Shape := ⟨2, ![50000, 128]⟩
abbrev S1600000 : Shape := ⟨1, ![1600000]⟩
abbrev S128x128 : Shape := ⟨2, ![128, 128]⟩
abbrev S100000x128 : Shape := ⟨2, ![100000, 128]⟩
abbrev S10000x128 : Shape := ⟨2, ![10000, 128]⟩
abbrev S_ : Shape := ⟨0, ![]⟩
abbrev S1600000x1 : Shape := ⟨2, ![1600000, 1]⟩
abbrev S1600000x128 : Shape := ⟨2, ![1600000, 128]⟩

abbrev nBuf : Space → Nat
  | .hbm => 25
  | .vmem => 9
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S1600000, .i32⟩
  | .hbm, ⟨3, _⟩ => ⟨S1600000, .i32⟩
  | .hbm, ⟨4, _⟩ => ⟨S1600000, .f32⟩
  | .hbm, ⟨5, _⟩ => ⟨S128x128, .f32⟩
  | .hbm, ⟨6, _⟩ => ⟨S100000x128, .f32⟩
  | .hbm, ⟨7, _⟩ => ⟨S100000x128, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x1, .f32⟩
  | .hbm, ⟨18, _⟩ => ⟨S1600000x128, .f32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  concatenates_S50000x128_S50000x128_S100000x128_d0 : Shape.Concatenates [S50000x128, S50000x128] S100000x128 0
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  dot_S10000x128_S128x128_S10000x128_1_0_0_1_n_n_wf : DotDims.WF S10000x128 S128x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_v0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S10000x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S50000x128 : Shape := ⟨2, ![50000, 128]⟩
abbrev S1600000 : Shape := ⟨1, ![1600000]⟩
abbrev S128x128 : Shape := ⟨2, ![128, 128]⟩
abbrev S100000x128 : Shape := ⟨2, ![100000, 128]⟩
abbrev S1600000x1 : Shape := ⟨2, ![1600000, 1]⟩
abbrev S_ : Shape := ⟨0, ![]⟩
abbrev S1600000x128 : Shape := ⟨2, ![1600000, 128]⟩

abbrev nBuf : Space → Nat
  | .hbm => 27
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S1600000, .i32⟩
  | .hbm, ⟨3, _⟩ => ⟨S1600000, .i32⟩
  | .hbm, ⟨4, _⟩ => ⟨S1600000, .f32⟩
  | .hbm, ⟨5, _⟩ => ⟨S128x128, .f32⟩
  | .hbm, ⟨6, _⟩ => ⟨S100000x128, .f32⟩
  | .hbm, ⟨7, _⟩ => ⟨S100000x128, .f32⟩
  | .hbm, ⟨8, _⟩ => ⟨S1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x128, .f32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S_, .f32⟩
  | .hbm, ⟨25, _⟩ => ⟨S100000x128, .f32⟩
  | .hbm, ⟨26, _⟩ => ⟨S100000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_cst : Ref sig .tc := ⟨.hbm, 24, rfl⟩
abbrev main_call0_v0 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  concatenates_S50000x128_S50000x128_S100000x128_d0 : Shape.Concatenates [S50000x128, S50000x128] S100000x128 0
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.Payload.lean ====
/-
  The dense transform's block, index by index. One grid point of the first kernel loads a 10000-row block `x` of the
  node features and the whole 128 x 128 weight `w`, narrows both to bf16 (the identity on the extended reals), and
  multiplies them on the matrix unit into a zero accumulator. Read at row `p` and column `q` that is the plain sum over the
  contracted axis `k` of `x[p, k] * w[k, q]`.
-/
import proofs.«163577_j72945724555832_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.TcCoe Idealize.SL.Sem

/-! ## The operand indices of the block's product -/

theorem lhs_blockdot_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_blockdot_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_blockdot_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_blockdot_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Row `i 0` of the block, at the contracted position `k`. -/
abbrev blockRow (i : S10000x128.Idx) (k : Fin 128) : S10000x128.Idx := fun a => match a with
  | ⟨0, _⟩ => ⟨(i 0).val, (i 0).isLt⟩
  | ⟨1, _⟩ => ⟨k.val, k.isLt⟩
/-- Column `i 1` of the weight, at the contracted position `k`. -/
abbrev weightCol (i : S10000x128.Idx) (k : Fin 128) : S128x128.Idx := fun a => match a with
  | ⟨0, _⟩ => ⟨k.val, k.isLt⟩
  | ⟨1, _⟩ => ⟨(i 1).val, (i 1).isLt⟩

/-- What one grid point stores, at an index of the block: the row of the loaded node block times the column of the
    loaded weight. The two narrowings to bf16 and the zero accumulator leave nothing behind on the extended reals. -/
theorem blockProduct_apply (x : Vec Ideal S10000x128 .f32) (w : Vec Ideal S128x128 .f32) (i : S10000x128.Idx) :
    k0_pay1 (F := Ideal) x w i = ∑ k : Fin 128, x (blockRow i k) * w (weightCol i k) := by
  unfold k0_pay1
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx i ((ValueIdx.contrEquiv1 dot_S10000x128_S128x128_S10000x128_1_0_0_1_n_n 128 rfl rfl).symm k) = blockRow i k := funext fun a => Fin.ext (by
    match a with
    | ⟨0, _⟩ => exact lhs_blockdot_0 _ _
    | ⟨1, _⟩ => exact (lhs_blockdot_1 _ _).trans hk)
  have er : dot_S10000x128_S128x128_S10000x128_1_0_0_1_n_n.rhsIdx i ((ValueIdx.contrEquiv1 dot_S10000x128_S128x128_S10000x128_1_0_0_1_n_n 128 rfl rfl).symm k) = weightCol i k := funext fun a => Fin.ext (by
    match a with
    | ⟨0, _⟩ => exact (rhs_blockdot_0 _ _).trans hk
    | ⟨1, _⟩ => exact rhs_blockdot_1 _ _)
  rw [el, er]
  simp only [ValueIdx.truncf_apply, shapeCast_self]

end Cert.KernelIdeal.Hand

end
-- ==== Proof.Region0.lean ====
/-
  The dense transform's array. The first kernel walks the 100000 node rows in ten blocks of 10000; grid point `t` reads
  rows `10000 t ... 10000 t + 9999` of the concatenated features and the whole weight, and writes the same rows of its
  result. So the array it leaves is, index by index, row `i 0` of the features times column `i 1` of the weight:
  `nodeProduct`, for whatever contents `V` the region is entered with.
-/
import proofs.«163577_j72945724555832_1_alg».proof.Proof.Gen.KernelIdeal.Frame
import proofs.«163577_j72945724555832_1_alg».proof.Proof.Payload
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

/-- Row `i 0` of the node features, at the contracted position `k`. -/
abbrev nodeRow (i : S100000x128.Idx) (k : Fin 128) : S100000x128.Idx := fun a => match a with
  | ⟨0, _⟩ => ⟨(i 0).val, (i 0).isLt⟩
  | ⟨1, _⟩ => ⟨k.val, k.isLt⟩
/-- Column `i 1` of the weight, at the contracted position `k`. -/
abbrev weightColAt (i : S100000x128.Idx) (k : Fin 128) : S128x128.Idx := fun a => match a with
  | ⟨0, _⟩ => ⟨k.val, k.isLt⟩
  | ⟨1, _⟩ => ⟨(i 1).val, (i 1).isLt⟩

/-- The node features times the weight: entry (r, q) is the sum over k of x[r, k] * w[k, q]. -/
def nodeProduct (x : S100000x128.Idx → EReal) (w : S128x128.Idx → EReal) : S100000x128.Idx → EReal :=
  fun i => ∑ k : Fin 128, x (nodeRow i k) * w (weightColAt i k)

variable (V : (c : Dev nD) → (b : Ref sig .tc) → Buf (Elt Ideal) ((c : Thread nD τ).loc b))

theorem zeroOffsets : (![0, 0] : Fin 2 → Nat) = fun _ => 0 := funext fun a => by fin_cases a <;> rfl

/-- The printed index maps over the ten points: the feature and result windows sit at block row `t`, block column 0;
    the weight window never moves. -/
theorem denseIndex : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature block at point `t` is rows `10000 t ...` of the feature array. -/
theorem featureBlock_apply (c : Dev nD) (t : Fin cfg0.N) (y : S10000x128.Idx) (i : S100000x128.Idx)
    (h0 : (i 0).val = 10000 * t.val + (y 0).val) (h1 : (i 1).val = (y 1).val) :
    (iblk0 V c 0 t : Vec Ideal S10000x128 .f32) y = (V c main_v0 : S100000x128.Idx → EReal) i := by
  obtain ⟨e0, e1, -, -, -, -⟩ := denseIndex t
  unfold iblk0
  rw [View.read_apply]
  show V c main_v0 _ = V c main_v0 _
  congr 1
  funext a
  apply Fin.ext
  match a with
  | ⟨0, _⟩ => show win0_0.index t (0 : Fin 2) * 10000 + 1 * (y 0).val = (i 0).val; rw [e0, h0]; omega
  | ⟨1, _⟩ => show win0_0.index t (1 : Fin 2) * 128 + 1 * (y 1).val = (i 1).val; rw [e1, h1]; omega

/-- The weight block at every point is the whole weight. -/
theorem weightBlock_apply (c : Dev nD) (t : Fin cfg0.N) (y : S128x128.Idx) :
    (iblk0 V c 1 t : Vec Ideal S128x128 .f32) y = (V c main_arg5 : S128x128.Idx → EReal) y := by
  obtain ⟨-, -, e2, e3, -, -⟩ := denseIndex t
  unfold iblk0
  rw [View.read_apply]
  show V c main_arg5 _ = V c main_arg5 _
  congr 1
  funext a
  apply Fin.ext
  match a with
  | ⟨0, _⟩ => show win0_1.index t (0 : Fin 2) * 128 + 1 * (y 0).val = (y 0).val; rw [e2]; omega
  | ⟨1, _⟩ => show win0_1.index t (1 : Fin 2) * 128 + 1 * (y 1).val = (y 1).val; rw [e3]; omega

/-- What point `t` writes back is block `t` of `nodeProduct` of the arrays the region finds. -/
theorem denseFlushed (c : Dev nD) (t : Fin cfg0.N) :
    (dat0 V c).flushed 2 t = ((cfg0.win 2).blk t).view.read (Elt Ideal) (nodeProduct (V c main_v0) (V c main_arg5)) := by
  show (cfg0.win 2).cut (grid0.coords t) ((dat0 V c).after 2 t) = _
  rw [after0_2]
  unfold out0_2
  rw [View.canon_unit_zero zeroOffsets]
  simp only [View.ld_unit_zero (S := S10000x128) zeroOffsets, View.ld_unit_zero (S := S128x128) zeroOffsets]
  obtain ⟨-, -, -, -, e4, e5⟩ := denseIndex t
  funext j
  refine (blockProduct_apply _ _ j).trans ?_
  show _ = nodeProduct (V c main_v0) (V c main_arg5) (((cfg0.win 2).blk t).view.emb j)
  unfold nodeProduct
  refine Finset.sum_congr rfl fun k _ => ?_
  have hr : ((((cfg0.win 2).blk t).view.emb j) 0).val = 10000 * t.val + (j 0).val := by
    show win0_2.index t (0 : Fin 2) * 10000 + 1 * (j 0).val = _; rw [e4]; omega
  have hc : ((((cfg0.win 2).blk t).view.emb j) 1).val = (j 1).val := by
    show win0_2.index t (1 : Fin 2) * 128 + 1 * (j 1).val = _; rw [e5]; omega
  have hw : weightCol j k = weightColAt (((cfg0.win 2).blk t).view.emb j) k := funext fun a => Fin.ext (by
    match a with
    | ⟨0, _⟩ => rfl
    | ⟨1, _⟩ => exact hc.symm)
  rw [featureBlock_apply V c t (blockRow j k) (nodeRow (((cfg0.win 2).blk t).view.emb j) k) hr rfl,
    weightBlock_apply V c t (weightCol j k), hw]

/-- An index of the result array is in point `t`'s block iff each coordinate is in the block's range on its axis. -/
theorem denseMem (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v1).slice (win0_2.rect t)).set ↔ _
  rw [View.set_slice_whole, Rect.mem_set_unit]
  exact Iff.rfl

/-- Every row is in some point's block: row `r` in block `r / 10000`. -/
theorem denseCover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  let t : Fin cfg0.N := ⟨(i 0).val / 10000, by rw [hN]; omega⟩
  obtain ⟨-, -, -, -, e4, e5⟩ := denseIndex t
  have ht : t.val = (i 0).val / 10000 := rfl
  refine ⟨t, flush0_2 t, ?_⟩
  rw [denseMem]
  intro a
  match a with
  | ⟨0, _⟩ => show win0_2.index t (0 : Fin 2) * 10000 ≤ (i 0).val ∧ (i 0).val < win0_2.index t (0 : Fin 2) * 10000 + 10000; rw [e4, ht]; omega
  | ⟨1, _⟩ => show win0_2.index t (1 : Fin 2) * 128 ≤ (i 1).val ∧ (i 1).val < win0_2.index t (1 : Fin 2) * 128 + 128; rw [e5]; omega

/-- The array the first kernel leaves: the features times the weight. -/
theorem denseFinal (c : Dev nD) : (dat0 V c).arrAt 2 cfg0.N = nodeProduct (V c main_v0) (V c main_arg5) :=
  (dat0 V c).arrAt_eq_of_cover 2 (nodeProduct (V c main_v0) (V c main_arg5)) (fun t _ => denseFlushed V c t) denseCover

end Cert.KernelIdeal.Hand

end
-- ==== Proof.Region1.lean ====
/-
  The rectifier's array. The second kernel walks the 100000 rows in the same ten blocks; grid point `t` reads rows
  `10000 t ...` of the aggregated messages and writes, in the same rows of its result, each entry's maximum with zero.
  So the array it leaves is `rectified` of the array it is entered with, entry by entry.
-/
import proofs.«163577_j72945724555832_1_alg».proof.Proof.Gen.KernelIdeal.Frame
import Idealize.ShloMosaic.Lib.ValueIdx
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

/-- Each entry's maximum with zero. -/
def rectified (v : FVec Ideal S100000x128 .f32) : FVec Ideal S100000x128 .f32 :=
  maximumf v (constant S100000x128 .f32 0x00000000#32)

variable (V : (c : Dev nD) → (b : Ref sig .tc) → Buf (Elt Ideal) ((c : Thread nD τ).loc b))

theorem noOffsets : (![0, 0] : Fin 2 → Nat) = fun _ => 0 := funext fun a => by fin_cases a <;> rfl

/-- What one grid point stores: each entry of the loaded block against zero. -/
theorem rectBlock_eq (x : Vec Ideal S10000x128 .f32) :
    k1_pay1 (F := Ideal) x = maximumf x (constant S10000x128 .f32 0x00000000#32) := by
  unfold k1_pay1
  rw [shapeCast_self]
  rfl

/-- The printed index maps over the ten points: both windows sit at block row `t`, block column 0. -/
theorem rectIndex : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- The input block at point `t` is rows `10000 t ...` of the array the region is entered with. -/
theorem messageBlock_apply (c : Dev nD) (t : Fin cfg1.N) (y : S10000x128.Idx) (i : S100000x128.Idx)
    (h0 : (i 0).val = 10000 * t.val + (y 0).val) (h1 : (i 1).val = (y 1).val) :
    (iblk1 V c 0 t : Vec Ideal S10000x128 .f32) y = (V c main_v14 : S100000x128.Idx → EReal) i := by
  obtain ⟨e0, e1, -, -⟩ := rectIndex t
  unfold iblk1
  rw [View.read_apply]
  show V c main_v14 _ = V c main_v14 _
  congr 1
  funext a
  apply Fin.ext
  match a with
  | ⟨0, _⟩ => show win1_0.index t (0 : Fin 2) * 10000 + 1 * (y 0).val = (i 0).val; rw [e0, h0]; omega
  | ⟨1, _⟩ => show win1_0.index t (1 : Fin 2) * 128 + 1 * (y 1).val = (i 1).val; rw [e1, h1]; omega

/-- What point `t` writes back is block `t` of `rectified` of the array the region finds. -/
theorem rectFlushed (c : Dev nD) (t : Fin cfg1.N) :
    (dat1 V c).flushed 1 t = ((cfg1.win 1).blk t).view.read (Elt Ideal) (rectified (V c main_v14)) := by
  show (cfg1.win 1).cut (grid1.coords t) ((dat1 V c).after 1 t) = _
  rw [after1_1]
  unfold out1_1
  rw [View.canon_unit_zero noOffsets]
  simp only [View.ld_unit_zero (S := S10000x128) noOffsets]
  obtain ⟨-, -, e2, e3⟩ := rectIndex t
  funext j
  refine (congrFun (rectBlock_eq _) j).trans ?_
  show _ = rectified (V c main_v14) (((cfg1.win 1).blk t).view.emb j)
  have hr : ((((cfg1.win 1).blk t).view.emb j) 0).val = 10000 * t.val + (j 0).val := by
    show win1_1.index t (0 : Fin 2) * 10000 + 1 * (j 0).val = _; rw [e2]; omega
  have hc : ((((cfg1.win 1).blk t).view.emb j) 1).val = (j 1).val := by
    show win1_1.index t (1 : Fin 2) * 128 + 1 * (j 1).val = _; rw [e3]; omega
  unfold rectified
  simp only [ValueIdx.maximumf_apply, ValueIdx.constant_apply]
  rw [messageBlock_apply V c t j (((cfg1.win 1).blk t).view.emb j) hr hc]

/-- An index of the result array is in point `t`'s block iff each coordinate is in the block's range on its axis. -/
theorem rectMem (t : Fin cfg1.N) (i : S100000x128.Idx) :
    i ∈ ((cfg1.win 1).blk t).view.set ↔ ∀ a : Fin 2, win1_1.index t a * S10000x128.size a ≤ (i a).val ∧ (i a).val < win1_1.index t a * S10000x128.size a + S10000x128.size a := by
  show i ∈ ((View.whole main_v15).slice (win1_1.rect t)).set ↔ _
  rw [View.set_slice_whole, Rect.mem_set_unit]
  exact Iff.rfl

/-- Every row is in some point's block: row `r` in block `r / 10000`. -/
theorem rectCover (i : S100000x128.Idx) :
    ∃ t : Fin cfg1.N, (cfg1.win 1).flush t = true ∧ i ∈ ((cfg1.win 1).blk t).view.set := by
  have hi0 : (i 0).val < 100000 := (i 0).isLt
  have hi1 : (i 1).val < 128 := (i 1).isLt
  have hN : cfg1.N = 10 := N_1
  let t : Fin cfg1.N := ⟨(i 0).val / 10000, by rw [hN]; omega⟩
  obtain ⟨-, -, e2, e3⟩ := rectIndex t
  have ht : t.val = (i 0).val / 10000 := rfl
  refine ⟨t, flush1_1 t, ?_⟩
  rw [rectMem]
  intro a
  match a with
  | ⟨0, _⟩ => show win1_1.index t (0 : Fin 2) * 10000 ≤ (i 0).val ∧ (i 0).val < win1_1.index t (0 : Fin 2) * 10000 + 10000; rw [e2, ht]; omega
  | ⟨1, _⟩ => show win1_1.index t (1 : Fin 2) * 128 ≤ (i 1).val ∧ (i 1).val < win1_1.index t (1 : Fin 2) * 128 + 128; rw [e3]; omega

/-- The array the second kernel leaves: the array it found, rectified. -/
theorem rectFinal (c : Dev nD) : (dat1 V c).arrAt 1 cfg1.N = rectified (V c main_v14) :=
  (dat1 V c).arrAt_eq_of_cover 1 (rectified (V c main_v14)) (fun t _ => rectFlushed V c t) rectCover

end Cert.KernelIdeal.Hand

end
-- ==== Proof.Between.lean ====
/-
  The kernel program's result as one function of the arguments. @main runs: the concatenation of the two feature
  arrays; the dense transform (first kernel); the aggregation on the host — gather the transformed row of each edge's
  column node, scale it by the edge's value, add it into the edge's row node; — and the rectifier (second kernel).
  The aggregation is carried as ONE function `aggregate` of the transformed features and the three edge arrays: nothing
  here looks inside the gather or the scatter-add. Each boundary's contents are read off the host stretches; the two
  kernels' arrays are `denseFinal` and `rectFinal`.
-/
import proofs.«163577_j72945724555832_1_alg».proof.Proof.Gen.KernelIdeal.Frame
import proofs.«163577_j72945724555832_1_alg».proof.Proof.Region0
import proofs.«163577_j72945724555832_1_alg».proof.Proof.Region1
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

/-- The host's aggregation between the two kernels: for each edge e, the row `cols e` of `nf` (a negative index
    counted from the end) scaled by `vals e`, added into row `rows e` of a zero array. -/
def aggregate {F : FTy → Type} [FloatOps F] (nf : (⟨S100000x128, .f32⟩ : BufTy).Contents (Elt F))
    (rows cols : (⟨S1600000, .i32⟩ : BufTy).Contents (Elt F)) (vals : (⟨S1600000, .f32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 rows)
    (mulf (broadcastInDim S1600000x128 ![0, 1] bcast_S1600000x1_S1600000x128_0_1 (broadcastInDim S1600000x1 ![0] bcast_S1600000_S1600000x1_0 vals))
      (Host.gather gather_S100000x128_S1600000x1_S1600000x128_1_0_n_n_0_1_1128 nf
        (broadcastInDim S1600000x1 ![0] bcast_S1600000_S1600000x1_0
          (select (cmpi .slt cols (broadcastInDim S1600000 ![] bcast_S_S1600000 (constantI S_ 32 0#32)))
            (addi cols (broadcastInDim S1600000 ![] bcast_S_S1600000 (constantI S_ 32 100000#32))) cols))))

variable (m : (ℓ : Loc nD τ sig) → Buf (Elt Ideal) ℓ) (ρ : Dev nD → PrngReg)

/-- Two feature arrays, one above the other. -/
abbrev stacked (u v : (⟨S50000x128, .f32⟩ : BufTy).Contents (Elt Ideal)) : (⟨S100000x128, .f32⟩ : BufTy).Contents (Elt Ideal) :=
  concatenate S100000x128 0 [⟨S50000x128, u⟩, ⟨S50000x128, v⟩] concatenates_S50000x128_S50000x128_S100000x128_d0

/-- The two feature arguments, one above the other. -/
abbrev features (c : Dev nD) : (⟨S100000x128, .f32⟩ : BufTy).Contents (Elt Ideal) :=
  stacked (m ((c : Thread nD τ).loc main_arg0)) (m ((c : Thread nD τ).loc main_arg1))

/-- The first kernel is entered with the concatenated features in its first window's array, -/
theorem entry_features (c : Dev nD) : V1 m ρ c main_v0 = features m c := by
  show StableHlo.after hostOps0 (W0 m ρ c) (Proc.devRef .tc main_v0) = _
  after_results <;> rfl

/-- and the weight argument, untouched, in its second. -/
theorem entry_weight (c : Dev nD) : V1 m ρ c main_arg5 = m ((c : Thread nD τ).loc main_arg5) := by
  show StableHlo.after hostOps0 (W0 m ρ c) (Proc.devRef .tc main_arg5) = _
  after_results <;> rfl

/-- The edge arrays are as launched when the first kernel returns: it does not touch them, and neither did the
    concatenation. -/
theorem mid_rows (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results <;> rfl)
theorem mid_cols (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results <;> rfl)
theorem mid_vals (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results <;> rfl)

/-- The first kernel's result array when it returns: the features times the weight. -/
theorem mid_transformed (c : Dev nD) :
    W2 m ρ c (Proc.devRef .tc main_v1) = nodeProduct (features m c) (m ((c : Thread nD τ).loc main_arg5)) :=
  (W2_arr m ρ c 2).trans ((denseFinal (V1 m ρ) c).trans (by rw [entry_features, entry_weight]))

/-- The second kernel is entered with the aggregation of what the first one left. -/
theorem entry_messages (c : Dev nD) :
    V3 m ρ c main_v14 = aggregate (F := Ideal) (W2 m ρ c (Proc.devRef .tc main_v1)) (W2 m ρ c (Proc.devRef .tc main_arg2))
      (W2 m ρ c (Proc.devRef .tc main_arg3)) (W2 m ρ c (Proc.devRef .tc main_arg4)) := by
  show StableHlo.after hostOps1 (W2 m ρ c) (Proc.devRef .tc main_v14) = _
  unfold aggregate
  after_results <;> rfl

/-- What the kernel program leaves in its result buffer, as a function of the arguments. -/
abbrev result (c : Dev nD) : (⟨S100000x128, .f32⟩ : BufTy).Contents (Elt Ideal) :=
  rectified (aggregate (F := Ideal) (nodeProduct (features m c) (m ((c : Thread nD τ).loc main_arg5)))
    (m ((c : Thread nD τ).loc main_arg2)) (m ((c : Thread nD τ).loc main_arg3)) (m ((c : Thread nD τ).loc main_arg4)))

/-- The last boundary's contents at the result buffer are `result`. -/
theorem exit_result (c : Dev nD) : W4 m ρ c (Proc.devRef .tc main_v15) = result m c :=
  (W4_arr m ρ c 1).trans ((rectFinal (V3 m ρ) c).trans (congrArg rectified ((entry_messages m ρ c).trans (by
    rw [mid_transformed, mid_rows, mid_cols, mid_vals]))))

end Cert.KernelIdeal.Hand

end
-- ==== Proof.RefSide.lean ====
/-
  The reference computes the same function. Its dense transform is ONE product of the 100000 concatenated rows with
  the weight on the host; read at an index that is the same sum over the contracted axis as the kernel's ten blocks
  put side by side (`nodeProduct`). After it the reference applies the very aggregation the kernel program applies
  (`aggregate`), and its rectifier is the maximum with an array of zeros (`rectified`).
-/
import proofs.«163577_j72945724555832_1_alg».proof.Proof.Gen.ReferenceIdeal.Run
import proofs.«163577_j72945724555832_1_alg».proof.Proof.Gen.ReferenceIdeal.Read
import proofs.«163577_j72945724555832_1_alg».proof.Proof.Between

noncomputable section

namespace Cert.ReferenceIdeal.Hand

open Cert.ReferenceIdeal Cert.ReferenceIdeal.Gen Idealize.ShloMosaic Idealize.ShloMosaic.TcCoe Idealize.SL.Sem
open Cert.KernelIdeal.Hand (nodeProduct nodeRow weightColAt aggregate rectified)

/-- The host's product of the concatenated features with the weight is `nodeProduct` of them: entry (r, q) is the
    sum over k of the feature at (r, k) times the weight at (k, q). -/
theorem product_eq (a0 a1 : (⟨S50000x128, .f32⟩ : BufTy).Contents (Elt Ideal)) (a5 : (⟨S128x128, .f32⟩ : BufTy).Contents (Elt Ideal)) :
    Read.val_main_v1 (F := Ideal) a0 a1 a5 = nodeProduct (Read.val_main_v0 (F := Ideal) a0 a1) a5 := by
  funext i
  refine (Read.val_main_v1_apply a0 a1 a5 i).trans ?_
  unfold nodeProduct
  refine Finset.sum_congr rfl fun k _ => ?_
  have hl : Read.lidx_main_v1 i k = nodeRow i k := funext fun a => by
    match a with
    | ⟨0, _⟩ => rfl
    | ⟨1, _⟩ => rfl
  have hr : Read.ridx_main_v1 i k = weightColAt i k := funext fun a => by
    match a with
    | ⟨0, _⟩ => rfl
    | ⟨1, _⟩ => rfl
  rw [hl, hr]

/-- An array of zeros, spelt as a broadcast scalar or as a splat. -/
theorem zeros_eq : broadcastInDim S100000x128 ![] bcast_S_S100000x128 (constant (F := Ideal) S_ .f32 0x00000000#32)
    = constant S100000x128 .f32 0x00000000#32 := by
  funext i
  exact broadcastInDim_apply _ bcast_S_S100000x128 _ i (fun a => a.elim0) (fun a => a.elim0)

/-- The reference's result term is the kernel program's `rectified (aggregate (nodeProduct …) …)` of the same arguments. -/
theorem reference_eq (a0 a1 : (⟨S50000x128, .f32⟩ : BufTy).Contents (Elt Ideal)) (a2 a3 : (⟨S1600000, .i32⟩ : BufTy).Contents (Elt Ideal))
    (a4 : (⟨S1600000, .f32⟩ : BufTy).Contents (Elt Ideal)) (a5 : (⟨S128x128, .f32⟩ : BufTy).Contents (Elt Ideal)) :
    maximumf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 a2) (mulf (broadcastInDim S1600000x128 ![0, 1] bcast_S1600000x1_S1600000x128_0_1 (broadcastInDim S1600000x1 ![0] bcast_S1600000_S1600000x1_0 a4)) (Host.gather gather_S100000x128_S1600000x1_S1600000x128_1_0_n_n_0_1_1128 (Read.val_main_v1 (F := Ideal) a0 a1 a5) (broadcastInDim S1600000x1 ![0] bcast_S1600000_S1600000x1_0 (select (cmpi .slt a3 (broadcastInDim S1600000 ![] bcast_S_S1600000 (constantI S_ 32 0#32))) (addi a3 (broadcastInDim S1600000 ![] bcast_S_S1600000 (constantI S_ 32 100000#32))) a3))))) (broadcastInDim S100000x128 ![] bcast_S_S100000x128 (constant S_ .f32 0x00000000#32))
      = rectified (aggregate (F := Ideal) (nodeProduct (Cert.KernelIdeal.Hand.stacked a0 a1) a5) a2 a3 a4) := by
  rw [product_eq, zeros_eq]
  rfl

end Cert.ReferenceIdeal.Hand

end
-- ==== Proof.lean ====
/-
  A graph-convolution layer: out = relu (A · ((u ; v) · W)), the sparse adjacency A given by its edges (row, column,
  value). Both programs concatenate the two feature arrays, transform the 100000 rows by the 128 x 128 weight, gather
  each edge's column row, scale it by the edge's value, add it into the edge's row, and rectify.

  They differ in two places only. The kernel program transforms the rows in ten blocks of 10000 on the matrix unit,
  narrowing both operands to bf16 first; on the extended reals the narrowing is the identity and each block's product
  into a zero accumulator is the plain sum over the contracted axis, so the ten blocks side by side are the reference's
  one host product (`denseFinal` against `product_eq`: a finite sum re-indexed, no finiteness needed). And it rectifies
  in a second kernel, block by block, where the reference takes one maximum with an array of zeros (`rectFinal`,
  `zeros_eq`). The aggregation between the two is the same host function on both sides and is never opened
  (`aggregate`).

  The kernel program's run with its result buffer read (`run_result`), its result as a function of the arguments
  (`exit_result`), and the reference's term as the same function (`reference_eq`) give the equivalence. The frames of
  the two kernel programs are the generated ones; the reference's is its generated run with the result dropped. The
  ideal pass rewrote nothing, so there is nothing to preserve.
-/
import proofs.«163577_j72945724555832_1_alg».proof.Defs
import proofs.«163577_j72945724555832_1_alg».proof.Proof.Gen.Kernel
import proofs.«163577_j72945724555832_1_alg».proof.Proof.Gen.Kernel.Frame
import proofs.«163577_j72945724555832_1_alg».proof.Proof.Gen.KernelIdeal
import proofs.«163577_j72945724555832_1_alg».proof.Proof.Gen.KernelIdeal.Frame
import proofs.«163577_j72945724555832_1_alg».proof.Proof.Gen.ReferenceIdeal
import proofs.«163577_j72945724555832_1_alg».proof.Proof.Gen.Pre_finite_inputs
import proofs.«163577_j72945724555832_1_alg».proof.Proof.Gen.ReferenceIdeal.Run
import proofs.«163577_j72945724555832_1_alg».proof.Proof.Gen.ReferenceIdeal.Read
import proofs.«163577_j72945724555832_1_alg».proof.Proof.KRun
import proofs.«163577_j72945724555832_1_alg».proof.Proof.Between
import proofs.«163577_j72945724555832_1_alg».proof.Proof.RefSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference terminates with its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with `rectified (aggregate (nodeProduct (u ; v) W) rows cols vals)` in their result buffers. -/
theorem algebraic : Cert.algebraic_KernelIdeal_ReferenceIdeal := by
  intro m ρ m' ρ' _ hagree
  refine ⟨fun c => Cert.KernelIdeal.Hand.result m c, ?_, ?_⟩
  · exact (θ_run Cert.KernelIdeal.defs _ _).mono
      (fun _ h c => ⟨(h c).1.trans (Cert.KernelIdeal.Hand.exit_result m ρ c), (h c).2⟩)
      (Cert.KernelIdeal.GenRun.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5⟩ := hagree c
    rw [e0, e1, e2, e3, e4, e5]
    exact Cert.ReferenceIdeal.Hand.reference_eq _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
